-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x12x2048x64 : Shape := ⟨4, ![2, 12, 2048, 64]⟩
abbrev S1x1x2048x2048 : Shape := ⟨4, ![1, 1, 2048, 2048]⟩
abbrev S_ : Shape := ⟨0, ![]⟩

class Facts : Prop where
  bcast_S_S2x12x2048x64 : S_.BroadcastsInDim S2x12x2048x64 (![] : Fin 0 → Fin S2x12x2048x64.rank)
  reducesTo_S2x12x2048x64_S_d0_1_2_3 : S2x12x2048x64.ReducesTo [0, 1, 2, 3] S_
  h_S_ : 0 < S_.numel

variable [Facts]

def fn {F : FTy → Type} [FloatOps F] (main_arg0 : FVec F S2x12x2048x64 .f32) (main_arg1 : FVec F S2x12x2048x64 .f32) (main_arg2 : FVec F S2x12x2048x64 .f32) (main_arg3 : IVec S1x1x2048x2048 32) : IVec S_ 1 :=
  let main_v0 : FVec F S2x12x2048x64 .f32 := Host.absf main_arg0
  let main_cst : FVec F S_ .f32 := constant S_ .f32 0x7F800000#32
  let main_v1 : FVec F S2x12x2048x64 .f32 := broadcastInDim S2x12x2048x64 ![] bcast_S_S2x12x2048x64 main_cst
  let main_v2 : IVec S2x12x2048x64 1 := cmpf .olt main_v0 main_v1
  let main_c : IVec S_ 1 := constantI S_ 1 1#1
  let main_v3 : IVec S_ 1 := (fun x v => Host.reduce IntOp.andi x v reducesTo_S2x12x2048x64_S_d0_1_2_3 h_S_) main_v2 main_c
  let main_v4 : FVec F S2x12x2048x64 .f32 := Host.absf main_arg1
  let main_cst_0 : FVec F S_ .f32 := constant S_ .f32 0x7F800000#32
  let main_v5 : FVec F S2x12x2048x64 .f32 := broadcastInDim S2x12x2048x64 ![] bcast_S_S2x12x2048x64 main_cst_0
  let main_v6 : IVec S2x12x2048x64 1 := cmpf .olt main_v4 main_v5
  let main_c_1 : IVec S_ 1 := constantI S_ 1 1#1
  let main_v7 : IVec S_ 1 := (fun x v => Host.reduce IntOp.andi x v reducesTo_S2x12x2048x64_S_d0_1_2_3 h_S_) main_v6 main_c_1
  let main_v8 : IVec S_ 1 := andi main_v3 main_v7
  let main_v9 : FVec F S2x12x2048x64 .f32 := Host.absf main_arg2
  let main_cst_2 : FVec F S_ .f32 := constant S_ .f32 0x7F800000#32
  let main_v10 : FVec F S2x12x2048x64 .f32 := broadcastInDim S2x12x2048x64 ![] bcast_S_S2x12x2048x64 main_cst_2
  let main_v11 : IVec S2x12x2048x64 1 := cmpf .olt main_v9 main_v10
  let main_c_3 : IVec S_ 1 := constantI S_ 1 1#1
  let main_v12 : IVec S_ 1 := (fun x v => Host.reduce IntOp.andi x v reducesTo_S2x12x2048x64_S_d0_1_2_3 h_S_) main_v11 main_c_3
  let main_v13 : IVec S_ 1 := andi main_v8 main_v12
  main_v13
-- ==== Kernel.lean ====
abbrev S2x12x2048x64 : Shape := ⟨4, ![2, 12, 2048, 64]⟩
abbrev S1x1x2048x2048 : Shape := ⟨4, ![1, 1, 2048, 2048]⟩
abbrev S2x12x2048x2048 : Shape := ⟨4, ![2, 12, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S2x12x2048x64, .f32⟩
  | .hbm, ⟨1, _⟩ => ⟨S2x12x2048x64, .f32⟩
  | .hbm, ⟨2, _⟩ => ⟨S2x12x2048x64, .f32⟩
  | .hbm, ⟨3, _⟩ => ⟨S1x1x2048x2048, .i32⟩
  | .hbm, ⟨4, _⟩ => ⟨S2x12x2048x64, .bf16⟩
  | .hbm, ⟨5, _⟩ => ⟨S2x12x2048x64, .bf16⟩
  | .hbm, ⟨6, _⟩ => ⟨S2x12x2048x64, .bf16⟩
  | .hbm, ⟨7, _⟩ => ⟨S2x12x2048x64, .f32⟩
  | .hbm, ⟨8, _⟩ => ⟨S2x12x2048x2048, .f32⟩
  | .local _ .vmem, ⟨0, _⟩ => ⟨S1x1x512x64, .bf16⟩
  | .local _ .vmem, ⟨1, _⟩ => ⟨S1x1x512x64, .bf16⟩
  | .local _ .vmem, ⟨2, _⟩ => ⟨S1x1x2048x64, .bf16⟩
  | .local _ .vmem, ⟨3, _⟩ => ⟨S1x1x2048x64, .bf16⟩
  | .local _ .vmem, ⟨4, _⟩ => ⟨S1x1x2048x64, .bf16⟩
  | .local _ .vmem, ⟨5, _⟩ => ⟨S1x1x2048x64, .bf16⟩
  | .local _ .vmem, ⟨6, _⟩ => ⟨S1x1x512x2048, .i32⟩
  | .local _ .vmem, ⟨7, _⟩ => ⟨S1x1x512x2048, .i32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S2x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 12, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, arg2.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  bitsLt_bf16_f32 : FTy.bits .bf16 < FTy.bits .f32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x12x2048x64.size a
  hwx0_0 : ∀ i : grid0.Coords, EltTy.bits .bf16 = 32 ∨ (Rect.block (s := S2x12x2048x64) S1x1x512x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x12x2048x64.size a
  hwx0_1 : ∀ i : grid0.Coords, EltTy.bits .bf16 = 32 ∨ (Rect.block (s := S2x12x2048x64) S1x1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x12x2048x64.size a
  hwx0_2 : ∀ i : grid0.Coords, EltTy.bits .bf16 = 32 ∨ (Rect.block (s := S2x12x2048x64) S1x1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S1x1x2048x2048.size a
  hwx0_3 : ∀ i : grid0.Coords, EltTy.bits .i32 = 32 ∨ (Rect.block (s := S1x1x2048x2048) S1x1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S2x12x2048x64.size a
  hwx0_4 : ∀ i : grid0.Coords, EltTy.bits .f32 = 32 ∨ (Rect.block (s := S2x12x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S2x12x2048x2048.size a
  hwx0_5 : ∀ i : grid0.Coords, EltTy.bits .f32 = 32 ∨ (Rect.block (s := S2x12x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x12x2048x64 : Shape := ⟨4, ![2, 12, 2048, 64]⟩
abbrev S1x1x2048x2048 : Shape := ⟨4, ![1, 1, 2048, 2048]⟩
abbrev S2x12x2048x2048 : Shape := ⟨4, ![2, 12, 2048, 2048]⟩
abbrev S_ : Shape := ⟨0, ![]⟩
abbrev S2x12x2048 : Shape := ⟨3, ![2, 12, 2048]⟩
abbrev S2x12x2048x1 : Shape := ⟨4, ![2, 12, 2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S2x12x2048x64, .f32⟩
  | .hbm, ⟨1, _⟩ => ⟨S2x12x2048x64, .f32⟩
  | .hbm, ⟨2, _⟩ => ⟨S2x12x2048x64, .f32⟩
  | .hbm, ⟨3, _⟩ => ⟨S1x1x2048x2048, .i32⟩
  | .hbm, ⟨4, _⟩ => ⟨S2x12x2048x2048, .f32⟩
  | .hbm, ⟨5, _⟩ => ⟨S_, .f32⟩
  | .hbm, ⟨6, _⟩ => ⟨S_, .f32⟩
  | .hbm, ⟨7, _⟩ => ⟨S2x12x2048x2048, .f32⟩
  | .hbm, ⟨8, _⟩ => ⟨S2x12x2048x2048, .f32⟩
  | .hbm, ⟨9, _⟩ => ⟨S_, .i32⟩
  | .hbm, ⟨10, _⟩ => ⟨S1x1x2048x2048, .i32⟩
  | .hbm, ⟨11, _⟩ => ⟨S1x1x2048x2048, .i1⟩
  | .hbm, ⟨12, _⟩ => ⟨S_, .f32⟩
  | .hbm, ⟨13, _⟩ => ⟨S2x12x2048x2048, .i1⟩
  | .hbm, ⟨14, _⟩ => ⟨S2x12x2048x2048, .f32⟩
  | .hbm, ⟨15, _⟩ => ⟨S2x12x2048x2048, .f32⟩
  | .hbm, ⟨16, _⟩ => ⟨S_, .f32⟩
  | .hbm, ⟨17, _⟩ => ⟨S2x12x2048, .f32⟩
  | .hbm, ⟨18, _⟩ => ⟨S_, .f32⟩
  | .hbm, ⟨19, _⟩ => ⟨S2x12x2048, .f32⟩
  | .hbm, ⟨20, _⟩ => ⟨S2x12x2048, .f32⟩
  | .hbm, ⟨21, _⟩ => ⟨S2x12x2048x1, .f32⟩
  | .hbm, ⟨22, _⟩ => ⟨S2x12x2048x2048, .f32⟩
  | .hbm, ⟨23, _⟩ => ⟨S2x12x2048x2048, .f32⟩
  | .hbm, ⟨24, _⟩ => ⟨S2x12x2048x2048, .f32⟩
  | .hbm, ⟨25, _⟩ => ⟨S_, .f32⟩
  | .hbm, ⟨26, _⟩ => ⟨S2x12x2048, .f32⟩
  | .hbm, ⟨27, _⟩ => ⟨S2x12x2048x1, .f32⟩
  | .hbm, ⟨28, _⟩ => ⟨S2x12x2048x2048, .f32⟩
  | .hbm, ⟨29, _⟩ => ⟨S2x12x2048x2048, .f32⟩
  | .hbm, ⟨30, _⟩ => ⟨S2x12x2048x64, .f32⟩
  | _, _ => ⟨S2x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S_S2x12x2048x2048 : S_.BroadcastsInDim S2x12x2048x2048 (![] : Fin 0 → Fin S2x12x2048x2048.rank)
  bcast_S_S1x1x2048x2048 : S_.BroadcastsInDim S1x1x2048x2048 (![] : Fin 0 → Fin S1x1x2048x2048.rank)
  bcast_S1x1x2048x2048_S2x12x2048x2048_0_1_2_3 : S1x1x2048x2048.BroadcastsInDim S2x12x2048x2048 (![0, 1, 2, 3] : Fin 4 → Fin S2x12x2048x2048.rank)
  reducesTo_S2x12x2048x2048_S2x12x2048_d3 : S2x12x2048x2048.ReducesTo [3] S2x12x2048
  h_S_ : 0 < S_.numel
  bcast_S_S2x12x2048 : S_.BroadcastsInDim S2x12x2048 (![] : Fin 0 → Fin S2x12x2048.rank)
  bcast_S2x12x2048_S2x12x2048x1_0_1_2 : S2x12x2048.BroadcastsInDim S2x12x2048x1 (![0, 1, 2] : Fin 3 → Fin S2x12x2048x1.rank)
  bcast_S2x12x2048x1_S2x12x2048x2048_0_1_2_3 : S2x12x2048x1.BroadcastsInDim S2x12x2048x2048 (![0, 1, 2, 3] : Fin 4 → Fin S2x12x2048x2048.rank)
  dot_S2x12x2048x64_S2x12x2048x64_S2x12x2048x2048_3_3_2_2_01_01_wf : DotDims.WF S2x12x2048x64 S2x12x2048x64 S2x12x2048x2048 [3] [3] [2] [2] [0, 1] [0, 1]
  dot_S2x12x2048x2048_S2x12x2048x64_S2x12x2048x64_3_2_2_3_01_01_wf : DotDims.WF S2x12x2048x2048 S2x12x2048x64 S2x12x2048x64 [3] [2] [2] [3] [0, 1] [0, 1]

variable [Facts₀]

def dot_S2x12x2048x64_S2x12x2048x64_S2x12x2048x2048_3_3_2_2_01_01 : DotDims S2x12x2048x64 S2x12x2048x64 S2x12x2048x2048 where
  lhsContracting := [3]
  rhsContracting := [3]
  lhsNonContracting := [2]
  rhsNonContracting := [2]
  lhsBatch := [0, 1]
  rhsBatch := [0, 1]
  wf := dot_S2x12x2048x64_S2x12x2048x64_S2x12x2048x2048_3_3_2_2_01_01_wf
def dot_S2x12x2048x2048_S2x12x2048x64_S2x12x2048x64_3_2_2_3_01_01 : DotDims S2x12x2048x2048 S2x12x2048x64 S2x12x2048x64 where
  lhsContracting := [3]
  rhsContracting := [2]
  lhsNonContracting := [2]
  rhsNonContracting := [3]
  lhsBatch := [0, 1]
  rhsBatch := [0, 1]
  wf := dot_S2x12x2048x2048_S2x12x2048x64_S2x12x2048x64_3_2_2_3_01_01_wf

class Facts : Prop extends Facts₀ where

variable [Facts]
-- ==== Proof.Finite.lean ====
/-
  What the precondition gives: every query and key entry is a real number.

  The precondition is the conjunction of three `jnp.all (|x| < +inf)`, one per float argument. Each
  conjunct is a reduction by `and` over the whole array, so it holds of every entry; and an extended real
  whose absolute value is below `+inf` is neither infinity.
-/
import proofs.«407602_j51238959841839_3_alg».proof.Pre_finite_inputs
import Idealize.ShloMosaic.Lib.ReduceAll
import Idealize.ShloMosaic.Lib.Pipeline.Value
import Idealize.ShloMosaic.Lib.ValueIdx
import Idealize.ShloMosaic.PureOps.Ideal

noncomputable section

namespace Attn.Finite

open Idealize.ShloMosaic Cert.Pre_finite_inputs

variable [Cert.Pre_finite_inputs.Facts]
open Cert.Pre_finite_inputs.Facts

instance : Subsingleton S_.Idx := ⟨fun _ _ => funext fun d => d.elim0⟩

/-- An extended real whose absolute value is below `+inf` is a real. -/
theorem real_of_abs_lt_top (x : EReal) (h : max x (-x) < ⊤) : ∃ r : ℝ, x = r := by
  induction x using EReal.rec with
  | bot => simp at h
  | top => simp at h
  | coe r => exact ⟨r, rfl⟩

/-- One entry of the comparison `|X| < +inf` being 1 says that entry of `X` is a real. -/
theorem entry_real (X : FVec Ideal S2x12x2048x64 .f32) (i : S2x12x2048x64.Idx)
    (h : cmpf .olt (Host.absf X) (broadcastInDim S2x12x2048x64 ![] bcast_S_S2x12x2048x64 (constant S_ .f32 0x7F800000#32)) i = 1#1) :
    ∃ r : ℝ, X i = r := by
  have hb : broadcastInDim S2x12x2048x64 ![] bcast_S_S2x12x2048x64 (constant (F := Ideal) S_ .f32 0x7F800000#32) i
      = Ideal.ofBits .f32 0x7F800000#32 :=
    broadcastInDim_apply _ _ _ i ValueIdx.ix0 (fun a => a.elim0)
  have htop : Ideal.ofBits .f32 0x7F800000#32 = ⊤ := by simp [Ideal.ofBits, Ideal.ieee]
  have h' : Ideal.cmp .olt (max (X i) (-(X i)))
      (broadcastInDim S2x12x2048x64 ![] bcast_S_S2x12x2048x64 (constant (F := Ideal) S_ .f32 0x7F800000#32) i) = 1#1 := h
  rw [hb, htop] at h'
  unfold Ideal.cmp at h'
  refine real_of_abs_lt_top _ ?_
  by_contra hn
  simp [hn] at h'

/-- Under the precondition every entry of the first two arguments (the queries and the keys) is a real. -/
theorem reals_of_pre (A0 A1 A2 : FVec Ideal S2x12x2048x64 .f32) (A3 : IVec S1x1x2048x2048 32)
    (h : fn (F := Ideal) A0 A1 A2 A3 = fun _ => 1#1) :
    (∀ i, ∃ r : ℝ, A0 i = r) ∧ (∀ i, ∃ r : ℝ, A1 i = r) := by
  have h0 := congrFun h ValueIdx.ix0
  dsimp only [fn] at h0
  obtain ⟨h01, -⟩ := IntOp.andi_eq_one.1 h0
  obtain ⟨ha, hb⟩ := IntOp.andi_eq_one.1 h01
  exact ⟨fun i => entry_real A0 i (Host.reduce_andi_all _ _ _ _ _ ha i),
    fun i => entry_real A1 i (Host.reduce_andi_all _ _ _ _ _ hb i)⟩

end Attn.Finite

end
-- ==== Proof.Literals.lean ====
/-
  The float literals the two programs spell, as the extended reals their patterns denote, and the one
  square root the reference takes of a literal: 64 has the exact root 8, so dividing by it is
  multiplying by 1/8, the kernel's scale.
-/
import Idealize.ShloMosaic.PureOps.Ideal

noncomputable section

namespace Attn.Literals

open Idealize.ShloMosaic

/-- The f32 pattern of `64.0` denotes the real 64. -/
theorem ofBits_64 : Ideal.ofBits .f32 0x42800000#32 = ((64 : ℝ) : EReal) := by
  simp [Ideal.ofBits, Ideal.ieee, -EReal.coe_mul]; norm_num

/-- The bf16 pattern of `0.125` denotes the real 1/8. -/
theorem ofBits_eighth : Ideal.ofBits .bf16 0x3E00#16 = ((1 / 8 : ℝ) : EReal) := by
  simp [Ideal.ofBits, Ideal.ieee, -EReal.coe_mul]; norm_num

/-- The f32 pattern of `1.0` denotes 1. -/
theorem ofBits_one : Ideal.ofBits .f32 0x3F800000#32 = 1 := by
  simp [Ideal.ofBits, Ideal.ieee, -EReal.coe_mul]; norm_num

/-- The f32 pattern of `-inf` denotes the bottom element. -/
theorem ofBits_neg_inf : Ideal.ofBits .f32 0xFF800000#32 = ⊥ := by
  simp [Ideal.ofBits, Ideal.ieee]

/-- The f32 zero pattern denotes 0. -/
theorem ofBits_zero : Ideal.ofBits .f32 0x00000000#32 = 0 := by
  simp [Ideal.ofBits, Ideal.ieee]

/-- The masked-out score `f32(1e-9)` denotes some real number (which one never matters). -/
theorem ofBits_eps_real : ∃ r : ℝ, Ideal.ofBits .f32 0x3089705F#32 = (r : EReal) := by
  have h1 : Ideal.ofBits .f32 0x3089705F#32 ≠ ⊤ := by simp [Ideal.ofBits, Ideal.ieee, -EReal.coe_mul]
  have h2 : Ideal.ofBits .f32 0x3089705F#32 ≠ ⊥ := by simp [Ideal.ofBits, Ideal.ieee, -EReal.coe_mul]
  exact ⟨_, (EReal.coe_toReal h1 h2).symm⟩

/-- The square root of 64 is 8. -/
theorem sqrt_64 : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-- So the reference's quotient by `sqrt 64` is the product with 1/8, on every extended real. -/
theorem div_sqrt_64 (x : EReal) :
    Ideal.div x (Ideal.sqrt (Ideal.ofBits .f32 0x42800000#32)) = x * ((1 / 8 : ℝ) : EReal) := by
  rw [ofBits_64, sqrt_64, Ideal.div_coe (by norm_num)]

end Attn.Literals

end
-- ==== Proof.Row.lean ====
/-
  The two laws of extended-real arithmetic on which the kernel and the reference differ, stated for one row.

  * Scaling: the kernel multiplies each query entry by the scale `c` before the dot product, the reference
    scales the finished dot product. For real entries `∑ (a d · c) · b d = (∑ a d · b d) · c`.
  * Normalising: the kernel multiplies each exponential by the reciprocal `1 / l` of the row's sum, the
    reference divides by `l`. The two agree once `l ≠ 0`; for a row of real scores the row maximum is real,
    every exponential is a positive real, and so is their sum.
-/
import Idealize.ShloMosaic.PureOps.Ideal
import proofs.«407602_j51238959841839_3_alg».proof.Proof.Literals
import Mathlib.Data.Finset.Fold
import Mathlib.Algebra.Order.BigOperators.Group.Finset

noncomputable section

namespace Attn.Row

open Idealize.ShloMosaic

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A dot product of real entries is real. -/
theorem dot_real {n : ℕ} (a b : Fin n → EReal) (ha : ∀ d, ∃ r : ℝ, a d = r) (hb : ∀ d, ∃ r : ℝ, b d = r) :
    ∃ r : ℝ, ∑ d, a d * b d = (r : EReal) := by
  choose ra hra using ha
  choose rb hrb using hb
  exact ⟨∑ d, ra d * rb d, by simp only [hra, hrb, ← EReal.coe_mul, ← coe_sum]⟩

/-- Scaling each left factor of a dot product of real entries is scaling the dot product. -/
theorem scaled_dot {n : ℕ} (a b : Fin n → EReal) (c : ℝ) (ha : ∀ d, ∃ r : ℝ, a d = r) (hb : ∀ d, ∃ r : ℝ, b d = r) :
    ∑ d, (a d * (c : EReal)) * b d = (∑ d, a d * b d) * (c : EReal) := by
  choose ra hra using ha
  choose rb hrb using hb
  simp only [hra, hrb, ← EReal.coe_mul, ← coe_sum]
  congr 1
  rw [Finset.sum_mul]
  exact Finset.sum_congr rfl fun d _ => by ring

/-- The maximum of a nonempty row of reals, folded from the bottom element, is a real. -/
theorem max_real {n : ℕ} (hn : 0 < n) (s : Fin n → EReal) (hs : ∀ j, ∃ r : ℝ, s j = r) :
    ∃ r : ℝ, Finset.univ.fold max (⊥ : EReal) s = (r : EReal) := by
  have htop : Finset.univ.fold max (⊥ : EReal) s < ⊤ :=
    (Finset.fold_max_lt _).mpr ⟨bot_lt_top, fun x _ => by obtain ⟨r, hr⟩ := hs x; rw [hr]; exact EReal.coe_lt_top r⟩
  have hbot : ⊥ < Finset.univ.fold max (⊥ : EReal) s := by
    obtain ⟨r, hr⟩ := hs ⟨0, hn⟩
    refine lt_of_lt_of_le (EReal.bot_lt_coe r) ?_
    rw [← hr]
    exact (Finset.le_fold_max _).mpr (Or.inr ⟨⟨0, hn⟩, Finset.mem_univ _, le_refl _⟩)
  exact ⟨_, (EReal.coe_toReal htop.ne hbot.ne').symm⟩

/-- The sum of the exponentials of a nonempty row of real scores, each shifted by the row's maximum, is not zero. -/
theorem sum_exp_ne_zero {n : ℕ} (hn : 0 < n) (s : Fin n → EReal) (hs : ∀ j, ∃ r : ℝ, s j = r) :
    ∑ k, Ideal.exp (s k - Finset.univ.fold max (⊥ : EReal) s) ≠ 0 := by
  obtain ⟨rm, hrm⟩ := max_real hn s hs
  choose rs hrs using hs
  rw [hrm]
  simp only [hrs, ← EReal.coe_sub, Ideal.exp_coe, ← coe_sum]
  have hpos : 0 < ∑ k : Fin n, Real.exp (rs k - rm) :=
    Finset.sum_pos (fun k _ => Real.exp_pos _) ⟨⟨0, hn⟩, Finset.mem_univ _⟩
  exact_mod_cast hpos.ne'

/-- Multiplying by the reciprocal of a nonzero denominator is dividing by it. -/
theorem mul_recip (e l : EReal) (hl : l ≠ 0) : e * Ideal.div 1 l = Ideal.div e l := by
  unfold Ideal.div
  rw [if_neg hl, if_neg hl, one_mul]

/-- Folding `max` from the bottom element and then taking the maximum with the bottom element again
    changes nothing. -/
theorem bot_max (x : EReal) : max (⊥ : EReal) x = x := max_eq_right bot_le

/-! ## One row of attention

A row is one query position of one head: `q` its query vector, `k j` and `v j` the key and value vectors
of key position `j`, `mk j` the mask word there. -/

variable (q : Fin 64 → EReal) (k v : Fin 2048 → Fin 64 → EReal) (mk : Fin 2048 → BitVec 32)

/-- The score against key `j`: the dot product scaled by 1/8, or the literal `f32(1e-9)` where the mask word is zero. -/
def rowScore (j : Fin 2048) : EReal :=
  Scalar.select (IntOp.cmpi .eq (mk j) 0#32) (Ideal.ofBits .f32 0x3089705F#32)
    ((∑ d : Fin 64, q d * k j d) * ((1 / 8 : ℝ) : EReal))

/-- The row's softmax weight on key `j`: `exp (s j - max s) / ∑ exp (s · - max s)`. -/
def rowWeight (j : Fin 2048) : EReal :=
  Ideal.div (Ideal.exp (rowScore q k mk j - Finset.univ.fold max (⊥ : EReal) (rowScore q k mk)))
    (∑ j' : Fin 2048, Ideal.exp (rowScore q k mk j' - Finset.univ.fold max (⊥ : EReal) (rowScore q k mk)))

/-- The row's output at feature `d`: the weighted sum of the value vectors. -/
def rowOut (d : Fin 64) : EReal := ∑ j : Fin 2048, rowWeight q k mk j * v j d

/-- A row of real queries and keys has real scores. -/
theorem rowScore_real (hq : ∀ d, ∃ r : ℝ, q d = r) (hk : ∀ j d, ∃ r : ℝ, k j d = r) (j : Fin 2048) :
    ∃ r : ℝ, rowScore q k mk j = (r : EReal) := by
  unfold rowScore Scalar.select
  split
  · exact Attn.Literals.ofBits_eps_real
  · obtain ⟨r, hr⟩ := dot_real q (k j) hq (hk j)
    exact ⟨r * (1 / 8), by rw [hr, EReal.coe_mul]⟩

/-- The kernel's score, with the scale applied to the query entries first, is the row's score when the
    entries are real. -/
theorem rowScore_of_prescaled (hq : ∀ d, ∃ r : ℝ, q d = r) (hk : ∀ j d, ∃ r : ℝ, k j d = r) (j : Fin 2048) :
    Scalar.select (IntOp.cmpi .eq (mk j) 0#32) (Ideal.ofBits .f32 0x3089705F#32)
      (∑ d : Fin 64, (q d * ((1 / 8 : ℝ) : EReal)) * k j d) = rowScore q k mk j := by
  unfold rowScore
  rw [scaled_dot q (k j) (1 / 8) hq (hk j)]

/-- The kernel's weight, the exponential times the reciprocal of the row's sum, is the row's weight when the
    entries are real. -/
theorem rowWeight_of_recip (hq : ∀ d, ∃ r : ℝ, q d = r) (hk : ∀ j d, ∃ r : ℝ, k j d = r) (j : Fin 2048) :
    Ideal.exp (rowScore q k mk j - Finset.univ.fold max (⊥ : EReal) (rowScore q k mk))
        * Ideal.div 1 (∑ j' : Fin 2048, Ideal.exp (rowScore q k mk j' - Finset.univ.fold max (⊥ : EReal) (rowScore q k mk)))
      = rowWeight q k mk j :=
  mul_recip _ _ (sum_exp_ne_zero (by norm_num) _ (rowScore_real q k mk hq hk))

end Attn.Row

end
-- ==== Proof.Spec.lean ====
/-
  Masked softmax attention as whole-array functions of the four arguments, index by index.

  For batch `b`, head `h` and query position `p` the row has the query vector `Q[b, h, p, ·]`, the key and
  value vectors `K[b, h, j, ·]` and `V[b, h, j, ·]` of every key position `j`, and the mask words `M[0, 0, p, ·]`
  (the mask is shared by all batches and heads). The attention weights at `[b, h, p, j]` are that row's
  softmax weight on `j`; the output at `[b, h, p, d]` is the weighted sum of the value vectors at feature `d`.
-/
import proofs.«407602_j51238959841839_3_alg».proof.Proof.Row
import Idealize.ShloMosaic.Lib.ValueIdx

noncomputable section

namespace Attn.Spec

open Idealize.ShloMosaic Idealize.ShloMosaic.ValueIdx Attn.Row

/-- The shape of the queries, keys, values and of the output. -/
abbrev SQ : Shape := ⟨4, ![2, 12, 2048, 64]⟩
/-- The shape of the mask. -/
abbrev SM : Shape := ⟨4, ![1, 1, 2048, 2048]⟩
/-- The shape of the attention weights. -/
abbrev SA : Shape := ⟨4, ![2, 12, 2048, 2048]⟩

/-- The vector at position `p` of batch `b`, head `h`. -/
def vecAt (X : SQ.Idx → EReal) (b : Fin 2) (h : Fin 12) (p : Fin 2048) : Fin 64 → EReal := fun d => X (ix4 b h p d)

/-- All the vectors of batch `b`, head `h`, by position. -/
def vecsOf (X : SQ.Idx → EReal) (b : Fin 2) (h : Fin 12) : Fin 2048 → Fin 64 → EReal := fun j d => X (ix4 b h j d)

/-- The mask words of query position `p`, by key position. -/
def maskRow (M : SM.Idx → BitVec 32) (p : Fin 2048) : Fin 2048 → BitVec 32 := fun j => M (ix4 0 0 p j)

/-- The attention weights. -/
def weights (Q K : SQ.Idx → EReal) (M : SM.Idx → BitVec 32) : SA.Idx → EReal := fun i =>
  rowWeight (vecAt Q (i 0) (i 1) (i 2)) (vecsOf K (i 0) (i 1)) (maskRow M (i 2)) (i 3)

/-- The attention output. -/
def output (Q K V : SQ.Idx → EReal) (M : SM.Idx → BitVec 32) : SQ.Idx → EReal := fun i =>
  rowOut (vecAt Q (i 0) (i 1) (i 2)) (vecsOf K (i 0) (i 1)) (vecsOf V (i 0) (i 1)) (maskRow M (i 2)) (i 3)

end Attn.Spec

end
-- ==== Proof.RefSide.lean ====
/-
  The reference computes the specification: its two results, read one operation at a time, are the
  attention weights and the attention output of `Attn.Spec`, at every index and for every extended-real input.

  The reference divides the dot product by `sqrt 64`, which is the product with 1/8; its row maximum is a
  fold of `max` from `-inf` followed by one more `max` with `-inf`; its row sum starts from 0.
-/
import proofs.«407602_j51238959841839_3_alg».proof.Proof.Gen.ReferenceIdeal.Read
import proofs.«407602_j51238959841839_3_alg».proof.Proof.Spec

noncomputable section

namespace Attn.RefSide

open Cert.ReferenceIdeal Cert.ReferenceIdeal.Gen Cert.ReferenceIdeal.Read Idealize.ShloMosaic Idealize.ShloMosaic.ValueIdx
open Attn.Row Attn.Spec

variable (x0 x1 x2 : (⟨S2x12x2048x64, .f32⟩ : BufTy).Contents (Elt Ideal))
variable (x3 : (⟨S1x1x2048x2048, .i32⟩ : BufTy).Contents (Elt Ideal))

/-! ## The composed index maps, by coordinates -/

theorem lidx0 (i : S2x12x2048x2048.Idx) (k : Fin 64) : lidx_main_v0 i k = ix4 (i 0) (i 1) (i 2) k :=
  funext fun a => Fin.ext (by match a with | ⟨0, _⟩ => rfl | ⟨1, _⟩ => rfl | ⟨2, _⟩ => rfl | ⟨3, _⟩ => rfl)

theorem ridx0 (i : S2x12x2048x2048.Idx) (k : Fin 64) : ridx_main_v0 i k = ix4 (i 0) (i 1) (i 3) k :=
  funext fun a => Fin.ext (by match a with | ⟨0, _⟩ => rfl | ⟨1, _⟩ => rfl | ⟨2, _⟩ => rfl | ⟨3, _⟩ => rfl)

theorem midx (i : S2x12x2048x2048.Idx) : idx_main_call0_v0 i = ix4 (0 : Fin 1) (0 : Fin 1) (i 2) (i 3) :=
  funext fun a => Fin.ext (by match a with | ⟨0, _⟩ => rfl | ⟨1, _⟩ => rfl | ⟨2, _⟩ => rfl | ⟨3, _⟩ => rfl)

/-! ## The masked, scaled scores -/

/-- The reference's masked score at `[b, h, p, j]` is the row's score on `j`. -/
theorem score_eq (i : S2x12x2048x2048.Idx) :
    val_main_v6 (F := Ideal) x0 x1 x3 i
      = rowScore (vecAt x0 (i 0) (i 1) (i 2)) (vecsOf x1 (i 0) (i 1)) (maskRow x3 (i 2)) (i 3) := by
  rw [val_main_v6_apply, val_main_call0_v0_apply, val_main_v5_apply, val_main_v4_apply, val_main_c_apply,
    val_main_call0_v1_apply, val_main_cst_0_apply, val_main_v3_apply, val_main_v0_apply, val_main_v2_apply,
    val_main_v1_apply, val_main_cst_apply]
  simp only [Ideal.hostDivf_def, Ideal.hostUnary_sqrt_def, Ideal.ofBits_def, Attn.Literals.div_sqrt_64, lidx0, ridx0, midx]
  rfl

/-- With the last coordinate put back, a rank-3 index is the rank-4 index of its coordinates. -/
theorem lift3 (h : S2x12x2048x2048.Reduces [3] S2x12x2048) (j : S2x12x2048.Idx) (k : Fin 2048) :
    h.lift j k = ix4 (j 0) (j 1) (j 2) k :=
  funext fun a => Fin.ext (by match a with | ⟨0, _⟩ => rfl | ⟨1, _⟩ => rfl | ⟨2, _⟩ => rfl | ⟨3, _⟩ => rfl)

/-- The reference's row maximum at `[b, h, p]` is the fold of `max` from the bottom element over the row's scores. -/
theorem rowMax_eq (j : S2x12x2048.Idx) :
    val_main_v9 (F := Ideal) x0 x1 x3 j
      = Finset.univ.fold max (⊥ : EReal) (rowScore (vecAt x0 (j 0) (j 1) (j 2)) (vecsOf x1 (j 0) (j 1)) (maskRow x3 (j 2))) := by
  have h : S2x12x2048x2048.Reduces [3] S2x12x2048 := by decide
  rw [val_main_v9_apply, val_main_v8_apply, val_main_cst_2_apply]
  unfold val_main_v7
  rw [Host.reduce_eq_fold_single FloatOps.maximumf _ _ reducesTo_S2x12x2048x2048_S2x12x2048_d3 h h_S_ j,
    val_main_cst_1_apply]
  simp only [Ideal.ofBits_def, Ideal.maximumf_def, Attn.Literals.ofBits_neg_inf]
  rw [bot_max]
  have hf : (val_main_v6 (F := Ideal) x0 x1 x3 ∘ h.lift j)
      = fun k : Fin 2048 => rowScore (vecAt x0 (j 0) (j 1) (j 2)) (vecsOf x1 (j 0) (j 1)) (maskRow x3 (j 2)) k :=
    funext fun (k : Fin 2048) =>
      (congrArg (val_main_v6 (F := Ideal) x0 x1 x3) (lift3 h j k)).trans (score_eq x0 x1 x3 _)
  exact congrArg (fun f => Finset.fold max (⊥ : EReal) f (Finset.univ : Finset (Fin 2048))) hf

/-! ## The weights and the output -/

theorem idx11 (i : S2x12x2048x2048.Idx) : idx_main_v10 (idx_main_v11 i) = (ix3 (i 0) (i 1) (i 2) : S2x12x2048.Idx) :=
  funext fun a => Fin.ext (by match a with | ⟨0, _⟩ => rfl | ⟨1, _⟩ => rfl | ⟨2, _⟩ => rfl)

theorem idx16 (i : S2x12x2048x2048.Idx) : idx_main_v15 (idx_main_v16 i) = (ix3 (i 0) (i 1) (i 2) : S2x12x2048.Idx) :=
  funext fun a => Fin.ext (by match a with | ⟨0, _⟩ => rfl | ⟨1, _⟩ => rfl | ⟨2, _⟩ => rfl)

theorem idx14 (b : Fin 2) (h : Fin 12) (p : Fin 2048) (k : Fin 2048) : idx_main_v14 (ix3 b h p) k = ix4 b h p k :=
  funext fun a => Fin.ext (by match a with | ⟨0, _⟩ => rfl | ⟨1, _⟩ => rfl | ⟨2, _⟩ => rfl | ⟨3, _⟩ => rfl)

/-- The reference's exponential at `[b, h, p, j]`: of the row's score on `j` less the row's maximum. -/
theorem exp_eq (i : S2x12x2048x2048.Idx) :
    val_main_v13 (F := Ideal) x0 x1 x3 i
      = Ideal.exp (rowScore (vecAt x0 (i 0) (i 1) (i 2)) (vecsOf x1 (i 0) (i 1)) (maskRow x3 (i 2)) (i 3)
          - Finset.univ.fold max (⊥ : EReal) (rowScore (vecAt x0 (i 0) (i 1) (i 2)) (vecsOf x1 (i 0) (i 1)) (maskRow x3 (i 2)))) := by
  rw [val_main_v13_apply, val_main_v12_apply, val_main_v11_apply, val_main_v10_apply, idx11, rowMax_eq, score_eq]
  rfl

/-- The reference's second result is the attention weights. -/
theorem weights_eq : val_main_v17 (F := Ideal) x0 x1 x3 = weights x0 x1 x3 := by
  funext i
  rw [val_main_v17_apply, val_main_v16_apply, val_main_v15_apply, idx16, val_main_v14_apply, val_main_cst_3_apply, exp_eq]
  simp only [idx14, exp_eq, Ideal.hostDivf_def, Ideal.ofBits_def, Attn.Literals.ofBits_zero, zero_add]
  rfl

theorem lidx18 (i : S2x12x2048x64.Idx) (k : Fin 2048) : lidx_main_v18 i k = ix4 (i 0) (i 1) (i 2) k :=
  funext fun a => Fin.ext (by match a with | ⟨0, _⟩ => rfl | ⟨1, _⟩ => rfl | ⟨2, _⟩ => rfl | ⟨3, _⟩ => rfl)

theorem ridx18 (i : S2x12x2048x64.Idx) (k : Fin 2048) : ridx_main_v18 i k = ix4 (i 0) (i 1) k (i 3) :=
  funext fun a => Fin.ext (by match a with | ⟨0, _⟩ => rfl | ⟨1, _⟩ => rfl | ⟨2, _⟩ => rfl | ⟨3, _⟩ => rfl)

/-- The reference's first result is the attention output. -/
theorem output_eq : val_main_v18 (F := Ideal) x0 x1 x2 x3 = output x0 x1 x2 x3 := by
  funext i
  rw [val_main_v18_apply, weights_eq]
  simp only [lidx18, ridx18]
  rfl

end Attn.RefSide

end
-- ==== Proof.Block.lean ====
/-
  What the kernel body computes on one block, read at an index.

  At one grid point the body holds a block of 512 query rows (`X0`), all 2048 key rows (`X1`) and value rows
  (`X2`) of the head, and the 512 × 2048 block of mask words (`X3`). For local query row `r`:
  its masked score on key `j` is the dot product of the pre-scaled query row with key row `j`; the
  weight is the exponential of the score less the row maximum, times the reciprocal of the row's sum;
  the output row is the weights times the value rows. When the query and key entries are real these are the
  row functions of `Attn.Row`.
-/
import proofs.«407602_j51238959841839_3_alg».proof.Proof.Gen.KernelIdeal.Skeleton
import proofs.«407602_j51238959841839_3_alg».proof.Proof.Row
import Idealize.ShloMosaic.Lib.Pipeline.Value
import Idealize.ShloMosaic.Lib.ValueIdx
import Idealize.ShloMosaic.PureOps.Ideal.Laws

noncomputable section

namespace Attn.Block

open Cert.KernelIdeal Cert.KernelIdeal.Gen Idealize.ShloMosaic Idealize.ShloMosaic.ValueIdx Attn.Row

/-! ## Layout operations of the body, read at coordinates -/

section Layout

variable {α : Type}

/-- Dropping the two unit axes of a query block. -/
theorem cast_q (x : S1x1x512x64.Idx → α) (r : Fin 512) (d : Fin 64) :
    shapeCast S512x64 x shapeCasts_S1x1x512x64_S512x64 (ix2 r d) = x (ix4 0 0 r d) :=
  shapeCast_apply x _ (ix2 r d) (ix4 0 0 r d) (by
    rw [Shape.rowMajor_val_four, Shape.rowMajor_val_two]
    show (((0 : ℕ) * 1 + 0) * 512 + r.val) * 64 + d.val = r.val * 64 + d.val
    omega)

/-- Dropping the two unit axes of a key or value block. -/
theorem cast_kv (x : S1x1x2048x64.Idx → α) (j : Fin 2048) (d : Fin 64) :
    shapeCast S2048x64 x shapeCasts_S1x1x2048x64_S2048x64 (ix2 j d) = x (ix4 0 0 j d) :=
  shapeCast_apply x _ (ix2 j d) (ix4 0 0 j d) (by
    rw [Shape.rowMajor_val_four, Shape.rowMajor_val_two]
    show (((0 : ℕ) * 1 + 0) * 2048 + j.val) * 64 + d.val = j.val * 64 + d.val
    omega)

/-- Dropping the two unit axes of a mask block. -/
theorem cast_m (x : S1x1x512x2048.Idx → α) (r : Fin 512) (j : Fin 2048) :
    shapeCast S512x2048 x shapeCasts_S1x1x512x2048_S512x2048 (ix2 r j) = x (ix4 0 0 r j) :=
  shapeCast_apply x _ (ix2 r j) (ix4 0 0 r j) (by
    rw [Shape.rowMajor_val_four, Shape.rowMajor_val_two]
    show (((0 : ℕ) * 1 + 0) * 512 + r.val) * 2048 + j.val = r.val * 2048 + j.val
    omega)

/-- A vector of 512 row values as a column. -/
theorem cast_col (x : S512.Idx → α) (r : Fin 512) :
    shapeCast S512x1 x shapeCasts_S512_S512x1 (ix2 r (0 : Fin 1)) = x (ix1 r) :=
  shapeCast_apply x _ (ix2 r (0 : Fin 1)) (ix1 r) (by
    rw [Shape.rowMajor_val_one, Shape.rowMajor_val_two]
    show r.val = r.val * 1 + 0
    omega)

/-- A column broadcast along the 2048 key positions. -/
theorem bcast_col (x : S512x1.Idx → α) (r : Fin 512) (j : Fin 2048) :
    broadcastTo S512x2048 x broadcasts_S512x1_S512x2048 (ix2 r j) = x (ix2 r (0 : Fin 1)) :=
  broadcastTo_apply x _ (ix2 r j) (ix2 r (0 : Fin 1)) (fun a => match a with
    | ⟨0, _⟩ => by show r.val = if (512 : ℕ) = 1 then 0 else r.val; rw [if_neg (by decide)]
    | ⟨1, _⟩ => by show (0 : ℕ) = if (1 : ℕ) = 1 then 0 else j.val; rw [if_pos rfl])

/-- The index of local row `r` with key position `k` put back after a reduction along the keys. -/
theorem lift_row (h : S512x2048.Reduces [1] S512) (r : Fin 512) (k : Fin (S512x2048.size 1)) :
    h.lift (ix1 r) k = ix2 r (⟨k.val, k.isLt⟩ : Fin 2048) :=
  funext fun a => Fin.ext (by match a with | ⟨0, _⟩ => rfl | ⟨1, _⟩ => rfl)

end Layout

/-! ## The two matrix products, read at coordinates -/

theorem qk_lhs_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl
theorem qk_lhs_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem qk_rhs_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl
theorem qk_rhs_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- Queries times keys, both contracted on the feature axis: entry `(r, j)` is the dot product of query row `r`
    and key row `j`. -/
theorem qk_apply (A : FVec Ideal S512x64 .bf16) (B : FVec Ideal S2048x64 .bf16) (r : Fin 512) (j : Fin 2048) :
    matmul dot_S512x64_S2048x64_S512x2048_1_1_0_0_n_n none A B (constant S512x2048 .f32 0x00000000#32) (ix2 r j)
      = ∑ d : Fin 64, A (ix2 r d) * B (ix2 j d) := by
  simp only [matmul]
  rw [Ideal.matmul_constant_zero_apply,
    ← Equiv.sum_comp (ValueIdx.contrEquiv1 dot_S512x64_S2048x64_S512x2048_1_1_0_0_n_n 64 rfl rfl).symm]
  refine Finset.sum_congr rfl fun k _ => ?_
  have hk := ValueIdx.contrEquiv1_symm_val dot_S512x64_S2048x64_S512x2048_1_1_0_0_n_n 64 rfl rfl k
  have el : dot_S512x64_S2048x64_S512x2048_1_1_0_0_n_n.lhsIdx (ix2 r j)
      ((ValueIdx.contrEquiv1 dot_S512x64_S2048x64_S512x2048_1_1_0_0_n_n 64 rfl rfl).symm k) = ix2 r k :=
    funext fun a => Fin.ext (by
      match a with
      | ⟨0, _⟩ => exact qk_lhs_0 _ _
      | ⟨1, _⟩ => exact (qk_lhs_1 _ _).trans hk)
  have er : dot_S512x64_S2048x64_S512x2048_1_1_0_0_n_n.rhsIdx (ix2 r j)
      ((ValueIdx.contrEquiv1 dot_S512x64_S2048x64_S512x2048_1_1_0_0_n_n 64 rfl rfl).symm k) = ix2 j k :=
    funext fun a => Fin.ext (by
      match a with
      | ⟨0, _⟩ => exact qk_rhs_0 _ _
      | ⟨1, _⟩ => exact (qk_rhs_1 _ _).trans hk)
  rw [el, er]

theorem pv_lhs_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem pv_lhs_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem pv_rhs_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem pv_rhs_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- Weights times values: entry `(r, d)` is the sum over key positions of the weight times the value's feature `d`. -/
theorem pv_apply (A : FVec Ideal S512x2048 .bf16) (B : FVec Ideal S2048x64 .bf16) (r : Fin 512) (d : Fin 64) :
    matmul dot_S512x2048_S2048x64_S512x64_1_0_0_1_n_n none A B (constant S512x64 .f32 0x00000000#32) (ix2 r d)
      = ∑ j : Fin 2048, A (ix2 r j) * B (ix2 j d) := by
  simp only [matmul]
  rw [Ideal.matmul_constant_zero_apply,
    ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 r d)
      ((ValueIdx.contrEquiv1 dot_S512x2048_S2048x64_S512x64_1_0_0_1_n_n 2048 rfl rfl).symm k) = ix2 r k :=
    funext fun a => Fin.ext (by
      match a with
      | ⟨0, _⟩ => exact pv_lhs_0 _ _
      | ⟨1, _⟩ => exact (pv_lhs_1 _ _).trans hk)
  have er : dot_S512x2048_S2048x64_S512x64_1_0_0_1_n_n.rhsIdx (ix2 r d)
      ((ValueIdx.contrEquiv1 dot_S512x2048_S2048x64_S512x64_1_0_0_1_n_n 2048 rfl rfl).symm k) = ix2 k d :=
    funext fun a => Fin.ext (by
      match a with
      | ⟨0, _⟩ => exact (pv_rhs_0 _ _).trans hk
      | ⟨1, _⟩ => exact pv_rhs_1 _ _)
  rw [el, er]

/-! ## The body's values on one block -/

variable (X0 : Vec Ideal S1x1x512x64 .bf16) (X1 X2 : Vec Ideal S1x1x2048x64 .bf16) (X3 : Vec Ideal S1x1x512x2048 .i32)

/-- The body's masked scores: the pre-scaled queries times the keys, the literal where the mask word is zero. -/
def scores : FVec Ideal S512x2048 .f32 :=
  select (cmpi .eq (shapeCast S512x2048 X3 shapeCasts_S1x1x512x2048_S512x2048 : IVec S512x2048 32) (broadcast S512x2048 0#32))
    (broadcast S512x2048 (Scalar.ofBits .f32 0x3089705F#32))
    (matmul dot_S512x64_S2048x64_S512x2048_1_1_0_0_n_n none
      (mulf (shapeCast S512x64 X0 shapeCasts_S1x1x512x64_S512x64 : FVec Ideal S512x64 .bf16)
        (broadcast S512x64 (Scalar.ofBits .bf16 0x3E00#16)))
      (shapeCast S2048x64 X1 shapeCasts_S1x1x2048x64_S2048x64 : FVec Ideal S2048x64 .bf16) (constant S512x2048 .f32 0x00000000#32))

/-- The body's exponentials: of each score less its row's maximum. -/
def exps : FVec Ideal S512x2048 .f32 :=
  exp (subf (scores X0 X1 X3)
    (broadcastTo S512x2048
      (shapeCast S512x1 (multiReduction .maximumf [1] S512 (scores X0 X1 X3) 0xFF800000#32 reduces_S512x2048_S512 (.inl rfl) rfl)
        shapeCasts_S512_S512x1)
      broadcasts_S512x1_S512x2048))

/-- The weights the body stores: each exponential times the reciprocal of its row's sum. -/
theorem pay3_eq : k0_pay3 (F := Ideal) X0 X1 X3
    = mulf (exps X0 X1 X3)
        (broadcastTo S512x2048
          (divf (broadcast S512x1 (Scalar.ofBits .f32 0x3F800000#32))
            (shapeCast S512x1 (multiReduction .add [1] S512 (exps X0 X1 X3) 0x00000000#32 reduces_S512x2048_S512 (.inl rfl) rfl)
              shapeCasts_S512_S512x1))
          broadcasts_S512x1_S512x2048) := rfl

/-- The three row arguments of local query row `r`. -/
abbrev qRow (r : Fin 512) : Fin 64 → EReal := fun d => X0 (ix4 0 0 r d)
abbrev kRows : Fin 2048 → Fin 64 → EReal := fun j d => X1 (ix4 0 0 j d)
abbrev vRows : Fin 2048 → Fin 64 → EReal := fun j d => X2 (ix4 0 0 j d)
abbrev mRow (r : Fin 512) : Fin 2048 → BitVec 32 := fun j => X3 (ix4 0 0 r j)

/-- The body's masked score at `(r, j)` is row `r`'s score on key `j`, when the queries and keys are real. -/
theorem scores_apply (hX0 : ∀ i, ∃ x : ℝ, X0 i = x) (hX1 : ∀ i, ∃ x : ℝ, X1 i = x) (r : Fin 512) (j : Fin 2048) :
    scores X0 X1 X3 (ix2 r j) = rowScore (qRow X0 r) (kRows X1) (mRow X3 r) j := by
  rw [← rowScore_of_prescaled (qRow X0 r) (kRows X1) (mRow X3 r) (fun d => hX0 _) (fun j d => hX1 _) j]
  unfold scores
  rw [select_apply, qk_apply]
  simp only [mulf_apply, broadcast_apply, cast_q, cast_kv]
  show Scalar.select (IntOp.cmpi .eq (shapeCast S512x2048 X3 shapeCasts_S1x1x512x2048_S512x2048 (ix2 r j)) 0#32)
      (Ideal.ofBits .f32 0x3089705F#32) (∑ d : Fin 64, X0 (ix4 0 0 r d) * Ideal.ofBits .bf16 0x3E00#16 * X1 (ix4 0 0 j d)) = _
  rw [cast_m, Attn.Literals.ofBits_eighth]

/-- The body's row maximum at `r` is the fold of `max` from the bottom element over the row's scores. -/
theorem rowMax_apply (hX0 : ∀ i, ∃ x : ℝ, X0 i = x) (hX1 : ∀ i, ∃ x : ℝ, X1 i = x) (r : Fin 512) :
    multiReduction .maximumf [1] S512 (scores X0 X1 X3) 0xFF800000#32 reduces_S512x2048_S512 (.inl rfl) rfl (ix1 r)
      = Finset.univ.fold max (⊥ : EReal) (rowScore (qRow X0 r) (kRows X1) (mRow X3 r)) := by
  refine (Ideal.multiReduction_maximumf_single (scores X0 X1 X3) 0xFF800000#32 reduces_S512x2048_S512 (.inl rfl) rfl (ix1 r)).trans ?_
  have hf : (scores X0 X1 X3 ∘ reduces_S512x2048_S512.lift (ix1 r))
      = fun k : Fin 2048 => rowScore (qRow X0 r) (kRows X1) (mRow X3 r) k :=
    funext fun (k : Fin 2048) =>
      (congrArg (scores X0 X1 X3) (lift_row reduces_S512x2048_S512 r k)).trans (scores_apply X0 X1 X3 hX0 hX1 r _)
  rw [show FloatOps.ofBits (F := Ideal) .f32 0xFF800000#32 = (⊥ : EReal) from Attn.Literals.ofBits_neg_inf]
  exact congrArg (fun f => Finset.fold max (⊥ : EReal) f (Finset.univ : Finset (Fin 2048))) hf

/-- The body's exponential at `(r, j)`. -/
theorem exps_apply (hX0 : ∀ i, ∃ x : ℝ, X0 i = x) (hX1 : ∀ i, ∃ x : ℝ, X1 i = x) (r : Fin 512) (j : Fin 2048) :
    exps X0 X1 X3 (ix2 r j)
      = Ideal.exp (rowScore (qRow X0 r) (kRows X1) (mRow X3 r) j
          - Finset.univ.fold max (⊥ : EReal) (rowScore (qRow X0 r) (kRows X1) (mRow X3 r))) := by
  unfold exps
  show Ideal.exp (scores X0 X1 X3 (ix2 r j) - broadcastTo S512x2048 _ broadcasts_S512x1_S512x2048 (ix2 r j)) = _
  rw [bcast_col, cast_col, rowMax_apply X0 X1 X3 hX0 hX1, scores_apply X0 X1 X3 hX0 hX1]

/-- The weight the body stores at `(r, j)` is row `r`'s softmax weight on key `j`, when the queries and keys are real. -/
theorem pay3_apply (hX0 : ∀ i, ∃ x : ℝ, X0 i = x) (hX1 : ∀ i, ∃ x : ℝ, X1 i = x) (r : Fin 512) (j : Fin 2048) :
    k0_pay3 (F := Ideal) X0 X1 X3 (ix2 r j) = rowWeight (qRow X0 r) (kRows X1) (mRow X3 r) j := by
  rw [pay3_eq, mulf_apply, bcast_col, divf_apply, broadcast_apply, cast_col]
  refine (congrArg (fun s => exps X0 X1 X3 (ix2 r j) * Ideal.div (Scalar.ofBits (F := Ideal) .f32 0x3F800000#32) s)
    (Ideal.multiReduction_add_single (exps X0 X1 X3) 0x00000000#32 reduces_S512x2048_S512 (.inl rfl) rfl (ix1 r))).trans ?_
  rw [← rowWeight_of_recip (qRow X0 r) (kRows X1) (mRow X3 r) (fun d => hX0 _) (fun j d => hX1 _) j,
    exps_apply X0 X1 X3 hX0 hX1,
    show Scalar.ofBits (F := Ideal) .f32 0x3F800000#32 = (1 : EReal) from Attn.Literals.ofBits_one]
  refine congrArg (fun s => _ * Ideal.div 1 s) (Finset.sum_congr rfl fun (k : Fin 2048) _ => ?_)
  exact (congrArg (exps X0 X1 X3) (lift_row reduces_S512x2048_S512 r k)).trans (exps_apply X0 X1 X3 hX0 hX1 r _)

/-- The output the body stores, as one term: the weights times the value rows, with two unit axes put in front. -/
theorem pay1_eq (Vk : FVec Ideal S2048x64 .bf16) (W : FVec Ideal S512x2048 .f32) : k0_pay1 (F := Ideal) Vk W
    = shapeCast S1x1x512x64
        (matmul dot_S512x2048_S2048x64_S512x64_1_0_0_1_n_n none (truncf .bf16 W bitsLt_bf16_f32 : FVec Ideal S512x2048 .bf16) Vk
          (constant S512x64 .f32 0x00000000#32))
        shapeCasts_S512x64_S1x1x512x64 := rfl

/-- The value rows the body multiplies by: the value block without its two unit axes. -/
theorem pay2_apply (j : Fin 2048) (d : Fin 64) : k0_pay2 (F := Ideal) X2 (ix2 j d) = X2 (ix4 0 0 j d) :=
  cast_kv X2 j d

/-- The output the body stores at local row `r`, feature `d`: the sum over key positions of the weight times the value. -/
theorem pay1_apply (Vk : FVec Ideal S2048x64 .bf16) (W : FVec Ideal S512x2048 .f32) (r : Fin 512) (d : Fin 64) :
    k0_pay1 (F := Ideal) Vk W (ix4 0 0 r d) = ∑ j : Fin 2048, W (ix2 r j) * Vk (ix2 j d) := by
  rw [pay1_eq]
  refine (shapeCast_apply _ _ (ix4 0 0 r d) (ix2 r d) (by
    rw [Shape.rowMajor_val_two, Shape.rowMajor_val_four]
    show r.val * 64 + d.val = (((0 : ℕ) * 1 + 0) * 512 + r.val) * 64 + d.val
    omega)).trans ?_
  exact pv_apply _ _ r d

end Attn.Block

end
-- ==== Proof.Arrays.lean ====
/-
  From blocks to arrays: after the kernel's run the second result array holds the attention weights and the
  first the attention output, as whole-array functions of the arguments.

  The grid has one point per batch `b`, head `h` and query tile `qi` (512 query positions). At a point the
  query window's block is rows `512·qi … 512·qi + 511` of `Q[b, h]`, the key and value windows' blocks are all of
  `K[b, h]` and `V[b, h]`, the mask window's block is rows `512·qi …` of the one mask, and the two output windows'
  blocks are the same rows of the results. The host's conversions of the arguments before the call are the
  identity on extended reals. So what a point writes back is the specification read through the point's block
  (for real queries and keys), and since the output blocks tile the result arrays, the arrays end holding it.
-/
import proofs.«407602_j51238959841839_3_alg».proof.Proof.Gen.KernelIdeal.Value
import proofs.«407602_j51238959841839_3_alg».proof.Proof.Block
import proofs.«407602_j51238959841839_3_alg».proof.Proof.Spec
import Idealize.ShloMosaic.Lib.Pipeline.Value
import Idealize.ShloMosaic.Lib.StableHlo.Run

noncomputable section

namespace Attn.Arrays

open Cert.KernelIdeal Cert.KernelIdeal.Gen Cert.KernelIdeal.Value
open Idealize.ShloMosaic Idealize.ShloMosaic.TcCoe Idealize.SL.Sem Idealize.ShloMosaic.ValueIdx Idealize.ShloMosaic.StableHlo
open Idealize.ShloMosaic.Pipeline (Dat)
open Attn.Row Attn.Spec Attn.Block

variable (m : (ℓ : Loc nD τ sig) → Buf (Elt Ideal) ℓ) (ρ : Dev nD → PrngReg)

/-! ## The arguments, and the arrays the region finds -/

/-- The queries, keys, values and mask as launched. -/
abbrev Qa (c : Dev nD) : S2x12x2048x64.Idx → EReal := m ((c : Thread nD τ).loc main_arg0)
abbrev Ka (c : Dev nD) : S2x12x2048x64.Idx → EReal := m ((c : Thread nD τ).loc main_arg1)
abbrev Va (c : Dev nD) : S2x12x2048x64.Idx → EReal := m ((c : Thread nD τ).loc main_arg2)
abbrev Ma (c : Dev nD) : S1x1x2048x2048.Idx → BitVec 32 := m ((c : Thread nD τ).loc main_arg3)

/-- The host's conversion of the queries to the narrower format is the identity on extended reals. -/
theorem V_v0 (c : Dev nD) : (V m c main_v0 : S2x12x2048x64.Idx → EReal) = Qa m c := by
  dsimp only [Gen.V, Gen.hostOps0]; after_results; rfl
theorem V_v1 (c : Dev nD) : (V m c main_v1 : S2x12x2048x64.Idx → EReal) = Ka m c := by
  dsimp only [Gen.V, Gen.hostOps0]; after_results; rfl
theorem V_v2 (c : Dev nD) : (V m c main_v2 : S2x12x2048x64.Idx → EReal) = Va m c := by
  dsimp only [Gen.V, Gen.hostOps0]; after_results; rfl
theorem V_a3 (c : Dev nD) : (V m c main_arg3 : S1x1x2048x2048.Idx → BitVec 32) = Ma m c := V_main_arg3 m c

/-! ## The index maps over the grid -/

theorem hz4 : (![0, 0, 0, 0] : Fin 4 → Nat) = fun _ => 0 := funext fun a => by fin_cases a <;> rfl

/-- The printed index maps, decided over the 96 grid points: every window follows the weights' window on the batch and
    head axes, the query, mask and output windows also on the query-tile axis, and every other block index is zero. -/
theorem idx_facts : ∀ t : Fin cfg0.N,
    (win0_0.index t (0 : Fin 4) = win0_5.index t (0 : Fin 4) ∧ win0_0.index t (1 : Fin 4) = win0_5.index t (1 : Fin 4)
      ∧ win0_0.index t (2 : Fin 4) = win0_5.index t (2 : Fin 4) ∧ win0_0.index t (3 : Fin 4) = 0)
    ∧ (win0_1.index t (0 : Fin 4) = win0_5.index t (0 : Fin 4) ∧ win0_1.index t (1 : Fin 4) = win0_5.index t (1 : Fin 4)
      ∧ win0_1.index t (2 : Fin 4) = 0 ∧ win0_1.index t (3 : Fin 4) = 0)
    ∧ (win0_2.index t (0 : Fin 4) = win0_5.index t (0 : Fin 4) ∧ win0_2.index t (1 : Fin 4) = win0_5.index t (1 : Fin 4)
      ∧ win0_2.index t (2 : Fin 4) = 0 ∧ win0_2.index t (3 : Fin 4) = 0)
    ∧ (win0_3.index t (0 : Fin 4) = 0 ∧ win0_3.index t (1 : Fin 4) = 0
      ∧ win0_3.index t (2 : Fin 4) = win0_5.index t (2 : Fin 4) ∧ win0_3.index t (3 : Fin 4) = 0)
    ∧ (win0_4.index t (0 : Fin 4) = win0_5.index t (0 : Fin 4) ∧ win0_4.index t (1 : Fin 4) = win0_5.index t (1 : Fin 4)
      ∧ win0_4.index t (2 : Fin 4) = win0_5.index t (2 : Fin 4) ∧ win0_4.index t (3 : Fin 4) = 0)
    ∧ (win0_5.index t (0 : Fin 4) < 2 ∧ win0_5.index t (1 : Fin 4) < 12 ∧ win0_5.index t (2 : Fin 4) < 4
      ∧ win0_5.index t (3 : Fin 4) = 0) :=
  (by decide +kernel : ∀ t : Fin grid0.N, _)

/-- Every batch, head and query tile is some point's. -/
theorem idx_onto : ∀ (q0 : Fin 2) (q1 : Fin 12) (q2 : Fin 4), ∃ t : Fin cfg0.N,
    win0_5.index t (0 : Fin 4) = q0.val ∧ win0_5.index t (1 : Fin 4) = q1.val ∧ win0_5.index t (2 : Fin 4) = q2.val :=
  (by decide +kernel : ∀ (q0 : Fin 2) (q1 : Fin 12) (q2 : Fin 4), ∃ t : Fin grid0.N,
    win0_5.index t (0 : Fin 4) = q0.val ∧ win0_5.index t (1 : Fin 4) = q1.val ∧ win0_5.index t (2 : Fin 4) = q2.val)

/-! ## The input windows' blocks at a point, as rows of the arguments -/

/-- The four input blocks at point `t`, at their literal types. -/
abbrev xq (c : Dev nD) (t : Fin cfg0.N) : Vec Ideal S1x1x512x64 .bf16 := iblk m c 0 t
abbrev xk (c : Dev nD) (t : Fin cfg0.N) : Vec Ideal S1x1x2048x64 .bf16 := iblk m c 1 t
abbrev xv (c : Dev nD) (t : Fin cfg0.N) : Vec Ideal S1x1x2048x64 .bf16 := iblk m c 2 t
abbrev xm (c : Dev nD) (t : Fin cfg0.N) : Vec Ideal S1x1x512x2048 .i32 := iblk m c 3 t

/-- The query block at point `t` is rows `512·qi + ·` of the queries of the point's batch and head. -/
theorem xq_apply (c : Dev nD) (t : Fin cfg0.N) (x : S1x1x512x64.Idx) (k : S2x12x2048x64.Idx)
    (h0 : (k 0).val = win0_5.index t (0 : Fin 4)) (h1 : (k 1).val = win0_5.index t (1 : Fin 4))
    (h2 : (k 2).val = win0_5.index t (2 : Fin 4) * 512 + (x 2).val) (h3 : (k 3).val = (x 3).val) :
    xq m c t x = Qa m c k := by
  obtain ⟨⟨e0, e1, e2, e3⟩, -⟩ := idx_facts t
  have hx0 : (x 0).val < 1 := (x 0).isLt
  have hx1 : (x 1).val < 1 := (x 1).isLt
  unfold xq iblk
  rw [View.read_apply]
  show (V m c main_v0 : S2x12x2048x64.Idx → EReal) _ = _
  rw [V_v0]
  congr 1
  funext a
  apply Fin.ext
  match a with
  | ⟨0, _⟩ => show win0_0.index t (0 : Fin 4) * 1 + 1 * (x 0).val = (k 0).val; omega
  | ⟨1, _⟩ => show win0_0.index t (1 : Fin 4) * 1 + 1 * (x 1).val = (k 1).val; omega
  | ⟨2, _⟩ => show win0_0.index t (2 : Fin 4) * 512 + 1 * (x 2).val = (k 2).val; omega
  | ⟨3, _⟩ => show win0_0.index t (3 : Fin 4) * 64 + 1 * (x 3).val = (k 3).val; omega

/-- The key block at point `t` is all the keys of the point's batch and head. -/
theorem xk_apply (c : Dev nD) (t : Fin cfg0.N) (x : S1x1x2048x64.Idx) (k : S2x12x2048x64.Idx)
    (h0 : (k 0).val = win0_5.index t (0 : Fin 4)) (h1 : (k 1).val = win0_5.index t (1 : Fin 4))
    (h2 : (k 2).val = (x 2).val) (h3 : (k 3).val = (x 3).val) :
    xk m c t x = Ka m c k := by
  obtain ⟨-, ⟨e0, e1, e2, e3⟩, -⟩ := idx_facts t
  have hx0 : (x 0).val < 1 := (x 0).isLt
  have hx1 : (x 1).val < 1 := (x 1).isLt
  unfold xk iblk
  rw [View.read_apply]
  show (V m c main_v1 : S2x12x2048x64.Idx → EReal) _ = _
  rw [V_v1]
  congr 1
  funext a
  apply Fin.ext
  match a with
  | ⟨0, _⟩ => show win0_1.index t (0 : Fin 4) * 1 + 1 * (x 0).val = (k 0).val; omega
  | ⟨1, _⟩ => show win0_1.index t (1 : Fin 4) * 1 + 1 * (x 1).val = (k 1).val; omega
  | ⟨2, _⟩ => show win0_1.index t (2 : Fin 4) * 2048 + 1 * (x 2).val = (k 2).val; omega
  | ⟨3, _⟩ => show win0_1.index t (3 : Fin 4) * 64 + 1 * (x 3).val = (k 3).val; omega

/-- The value block at point `t` is all the values of the point's batch and head. -/
theorem xv_apply (c : Dev nD) (t : Fin cfg0.N) (x : S1x1x2048x64.Idx) (k : S2x12x2048x64.Idx)
    (h0 : (k 0).val = win0_5.index t (0 : Fin 4)) (h1 : (k 1).val = win0_5.index t (1 : Fin 4))
    (h2 : (k 2).val = (x 2).val) (h3 : (k 3).val = (x 3).val) :
    xv m c t x = Va m c k := by
  obtain ⟨-, -, ⟨e0, e1, e2, e3⟩, -⟩ := idx_facts t
  have hx0 : (x 0).val < 1 := (x 0).isLt
  have hx1 : (x 1).val < 1 := (x 1).isLt
  unfold xv iblk
  rw [View.read_apply]
  show (V m c main_v2 : S2x12x2048x64.Idx → EReal) _ = _
  rw [V_v2]
  congr 1
  funext a
  apply Fin.ext
  match a with
  | ⟨0, _⟩ => show win0_2.index t (0 : Fin 4) * 1 + 1 * (x 0).val = (k 0).val; omega
  | ⟨1, _⟩ => show win0_2.index t (1 : Fin 4) * 1 + 1 * (x 1).val = (k 1).val; omega
  | ⟨2, _⟩ => show win0_2.index t (2 : Fin 4) * 2048 + 1 * (x 2).val = (k 2).val; omega
  | ⟨3, _⟩ => show win0_2.index t (3 : Fin 4) * 64 + 1 * (x 3).val = (k 3).val; omega

/-- The mask block at point `t` is rows `512·qi + ·` of the mask. -/
theorem xm_apply (c : Dev nD) (t : Fin cfg0.N) (x : S1x1x512x2048.Idx) (k : S1x1x2048x2048.Idx)
    (h2 : (k 2).val = win0_5.index t (2 : Fin 4) * 512 + (x 2).val) (h3 : (k 3).val = (x 3).val) :
    xm m c t x = Ma m c k := by
  obtain ⟨-, -, -, ⟨e0, e1, e2, e3⟩, -⟩ := idx_facts t
  have hx0 : (x 0).val < 1 := (x 0).isLt
  have hx1 : (x 1).val < 1 := (x 1).isLt
  have hk0 : (k 0).val < 1 := (k 0).isLt
  have hk1 : (k 1).val < 1 := (k 1).isLt
  unfold xm iblk
  rw [View.read_apply]
  show (V m c main_arg3 : S1x1x2048x2048.Idx → BitVec 32) _ = _
  rw [V_a3]
  congr 1
  funext a
  apply Fin.ext
  match a with
  | ⟨0, _⟩ => show win0_3.index t (0 : Fin 4) * 1 + 1 * (x 0).val = (k 0).val; omega
  | ⟨1, _⟩ => show win0_3.index t (1 : Fin 4) * 1 + 1 * (x 1).val = (k 1).val; omega
  | ⟨2, _⟩ => show win0_3.index t (2 : Fin 4) * 512 + 1 * (x 2).val = (k 2).val; omega
  | ⟨3, _⟩ => show win0_3.index t (3 : Fin 4) * 2048 + 1 * (x 3).val = (k 3).val; omega

/-! ## What a point writes back -/

section Point

variable (c : Dev nD)

/-- Real queries make every query block real. -/
theorem xq_real (hQ : ∀ i, ∃ x : ℝ, Qa m c i = x) (t : Fin cfg0.N) (x : S1x1x512x64.Idx) : ∃ r : ℝ, xq m c t x = r := by
  obtain ⟨-, -, -, -, -, ⟨b0, b1, b2, -⟩⟩ := idx_facts t
  have hx2 : (x 2).val < 512 := (x 2).isLt
  have hx3 : (x 3).val < 64 := (x 3).isLt
  rw [xq_apply m c t x (ix4 (⟨win0_5.index t (0 : Fin 4), b0⟩ : Fin 2) (⟨win0_5.index t (1 : Fin 4), b1⟩ : Fin 12)
    (⟨win0_5.index t (2 : Fin 4) * 512 + (x 2).val, by omega⟩ : Fin 2048) (⟨(x 3).val, hx3⟩ : Fin 64)) rfl rfl rfl rfl]
  exact hQ _

/-- Real keys make every key block real. -/
theorem xk_real (hK : ∀ i, ∃ x : ℝ, Ka m c i = x) (t : Fin cfg0.N) (x : S1x1x2048x64.Idx) : ∃ r : ℝ, xk m c t x = r := by
  obtain ⟨-, -, -, -, -, ⟨b0, b1, b2, -⟩⟩ := idx_facts t
  have hx2 : (x 2).val < 2048 := (x 2).isLt
  have hx3 : (x 3).val < 64 := (x 3).isLt
  rw [xk_apply m c t x (ix4 (⟨win0_5.index t (0 : Fin 4), b0⟩ : Fin 2) (⟨win0_5.index t (1 : Fin 4), b1⟩ : Fin 12)
    (⟨(x 2).val, hx2⟩ : Fin 2048) (⟨(x 3).val, hx3⟩ : Fin 64)) rfl rfl rfl rfl]
  exact hK _

/-- The three row arguments of local query row `r` at point `t` are those of the array row `i` it is. -/
theorem rows_eq (t : Fin cfg0.N) (r : Fin 512) (b : Fin 2) (h : Fin 12) (p : Fin 2048)
    (h0 : b.val = win0_5.index t (0 : Fin 4)) (h1 : h.val = win0_5.index t (1 : Fin 4))
    (h2 : p.val = win0_5.index t (2 : Fin 4) * 512 + r.val) :
    qRow (xq m c t) r = vecAt (Qa m c) b h p ∧ kRows (xk m c t) = vecsOf (Ka m c) b h
      ∧ vRows (xv m c t) = vecsOf (Va m c) b h ∧ mRow (xm m c t) r = maskRow (Ma m c) p :=
  ⟨funext fun d => xq_apply m c t (ix4 (0 : Fin 1) (0 : Fin 1) r d) (ix4 b h p d) h0 h1 h2 rfl,
    funext fun j => funext fun d => xk_apply m c t (ix4 (0 : Fin 1) (0 : Fin 1) j d) (ix4 b h j d) h0 h1 rfl rfl,
    funext fun j => funext fun d => xv_apply m c t (ix4 (0 : Fin 1) (0 : Fin 1) j d) (ix4 b h j d) h0 h1 rfl rfl,
    funext fun j => xm_apply m c t (ix4 (0 : Fin 1) (0 : Fin 1) r j) (ix4 (0 : Fin 1) (0 : Fin 1) p j) h2 rfl⟩

/-- What the body leaves in the weights' block at point `t`, local row `r`, key `j`: the specification's weight there. -/
theorem out5_apply (hQ : ∀ i, ∃ x : ℝ, Qa m c i = x) (hK : ∀ i, ∃ x : ℝ, Ka m c i = x) (t : Fin cfg0.N) (r : Fin 512) (j : Fin 2048) (i : S2x12x2048x2048.Idx)
    (h0 : (i 0).val = win0_5.index t (0 : Fin 4)) (h1 : (i 1).val = win0_5.index t (1 : Fin 4))
    (h2 : (i 2).val = win0_5.index t (2 : Fin 4) * 512 + r.val) (h3 : (i 3).val = j.val) :
    out0_5 (xq m c t) (xk m c t) (xv m c t) (xm m c t) (ix4 (0 : Fin 1) (0 : Fin 1) r j)
      = weights (Qa m c) (Ka m c) (Ma m c) i := by
  unfold out0_5
  rw [Value.canon5_eq]
  simp only [View.ld_unit_zero (S := S1x1x512x64) hz4, View.ld_unit_zero (S := S1x1x2048x64) hz4,
    View.ld_unit_zero (S := S1x1x512x2048) hz4]
  show k0_pay3 (F := Ideal) (xq m c t) (xk m c t) (xm m c t) (ix5_0 (ix4 (0 : Fin 1) (0 : Fin 1) r j)) = _
  have hy : ix5_0 (ix4 (0 : Fin 1) (0 : Fin 1) r j) = ix2 r j :=
    funext fun a => Fin.ext (by match a with | ⟨0, _⟩ => rfl | ⟨1, _⟩ => rfl)
  rw [hy, pay3_apply _ _ _ (xq_real m c hQ t) (xk_real m c hK t)]
  obtain ⟨e1, e2, -, e4⟩ := rows_eq m c t r (i 0) (i 1) (i 2) h0 h1 h2
  have e5 : j = i 3 := Fin.ext h3.symm
  unfold weights
  rw [e1, e2, e4, e5]

/-- What the body leaves in the output's block at point `t`, local row `r`, feature `d`: the specification's output there. -/
theorem out4_apply (hQ : ∀ i, ∃ x : ℝ, Qa m c i = x) (hK : ∀ i, ∃ x : ℝ, Ka m c i = x) (t : Fin cfg0.N) (r : Fin 512) (d : Fin 64) (i : S2x12x2048x64.Idx)
    (h0 : (i 0).val = win0_5.index t (0 : Fin 4)) (h1 : (i 1).val = win0_5.index t (1 : Fin 4))
    (h2 : (i 2).val = win0_5.index t (2 : Fin 4) * 512 + r.val) (h3 : (i 3).val = d.val) :
    out0_4 (xq m c t) (xk m c t) (xv m c t) (xm m c t) (ix4 (0 : Fin 1) (0 : Fin 1) r d)
      = output (Qa m c) (Ka m c) (Va m c) (Ma m c) i := by
  unfold out0_4
  rw [View.canon_unit_zero hz4]
  simp only [View.ld_unit_zero (S := S1x1x512x64) hz4, View.ld_unit_zero (S := S1x1x2048x64) hz4,
    View.ld_unit_zero (S := S1x1x512x2048) hz4]
  rw [pay1_apply]
  obtain ⟨e1, e2, e3, e4⟩ := rows_eq m c t r (i 0) (i 1) (i 2) h0 h1 h2
  have e5 : d = i 3 := Fin.ext h3.symm
  unfold output rowOut
  refine Finset.sum_congr rfl fun j _ => ?_
  rw [pay3_apply _ _ _ (xq_real m c hQ t) (xk_real m c hK t), pay2_apply, e1, e2, e4, ← e3, e5]

/-- A block index of the weights' window, by its coordinates. -/
theorem blockIdx5 (y : S1x1x512x2048.Idx) :
    y = ix4 (0 : Fin 1) (0 : Fin 1) (⟨(y 2).val, (y 2).isLt⟩ : Fin 512) (⟨(y 3).val, (y 3).isLt⟩ : Fin 2048) :=
  funext fun a => Fin.ext (by
    have hy0 : (y 0).val < 1 := (y 0).isLt
    have hy1 : (y 1).val < 1 := (y 1).isLt
    match a with
    | ⟨0, _⟩ => show (y 0).val = 0; omega
    | ⟨1, _⟩ => show (y 1).val = 0; omega
    | ⟨2, _⟩ => rfl
    | ⟨3, _⟩ => rfl)

/-- A block index of the output's window, by its coordinates. -/
theorem blockIdx4 (y : S1x1x512x64.Idx) :
    y = ix4 (0 : Fin 1) (0 : Fin 1) (⟨(y 2).val, (y 2).isLt⟩ : Fin 512) (⟨(y 3).val, (y 3).isLt⟩ : Fin 64) :=
  funext fun a => Fin.ext (by
    have hy0 : (y 0).val < 1 := (y 0).isLt
    have hy1 : (y 1).val < 1 := (y 1).isLt
    match a with
    | ⟨0, _⟩ => show (y 0).val = 0; omega
    | ⟨1, _⟩ => show (y 1).val = 0; omega
    | ⟨2, _⟩ => rfl
    | ⟨3, _⟩ => rfl)

/-- What point `t` writes back to the weights' array is block `t` of the specification's weights. -/
theorem flushed5_eq (hQ : ∀ i, ∃ x : ℝ, Qa m c i = x) (hK : ∀ i, ∃ x : ℝ, Ka m c i = x) (t : Fin cfg0.N) :
    (dats m 0 c).flushed 5 t = ((cfg0.win 5).blk t).view.read (Elt Ideal) (weights (Qa m c) (Ka m c) (Ma m c)) := by
  obtain ⟨-, -, -, -, -, ⟨-, -, -, b3⟩⟩ := idx_facts t
  rw [Value.flushed5]
  funext y
  show out0_5 (xq m c t) (xk m c t) (xv m c t) (xm m c t) y
    = weights (Qa m c) (Ka m c) (Ma m c) (((cfg0.win 5).blk t).view.emb y)
  have hy0 : (y 0).val < 1 := (y 0).isLt
  have hy1 : (y 1).val < 1 := (y 1).isLt
  refine (congrArg (out0_5 (xq m c t) (xk m c t) (xv m c t) (xm m c t)) (blockIdx5 y)).trans ?_
  refine out5_apply m c hQ hK t _ _ _ ?_ ?_ ?_ ?_
  · show win0_5.index t (0 : Fin 4) * 1 + 1 * (y 0).val = win0_5.index t (0 : Fin 4); omega
  · show win0_5.index t (1 : Fin 4) * 1 + 1 * (y 1).val = win0_5.index t (1 : Fin 4); omega
  · show win0_5.index t (2 : Fin 4) * 512 + 1 * (y 2).val = win0_5.index t (2 : Fin 4) * 512 + (y 2).val; omega
  · show win0_5.index t (3 : Fin 4) * 2048 + 1 * (y 3).val = (y 3).val; omega

/-- What point `t` writes back to the output's array is block `t` of the specification's output. -/
theorem flushed4_eq (hQ : ∀ i, ∃ x : ℝ, Qa m c i = x) (hK : ∀ i, ∃ x : ℝ, Ka m c i = x) (t : Fin cfg0.N) :
    (dats m 0 c).flushed 4 t
      = ((cfg0.win 4).blk t).view.read (Elt Ideal) (output (Qa m c) (Ka m c) (Va m c) (Ma m c)) := by
  obtain ⟨-, -, -, -, ⟨e0, e1, e2, e3⟩, -⟩ := idx_facts t
  rw [Value.flushed4]
  funext y
  show out0_4 (xq m c t) (xk m c t) (xv m c t) (xm m c t) y
    = output (Qa m c) (Ka m c) (Va m c) (Ma m c) (((cfg0.win 4).blk t).view.emb y)
  have hy0 : (y 0).val < 1 := (y 0).isLt
  have hy1 : (y 1).val < 1 := (y 1).isLt
  refine (congrArg (out0_4 (xq m c t) (xk m c t) (xv m c t) (xm m c t)) (blockIdx4 y)).trans ?_
  refine out4_apply m c hQ hK t _ _ _ ?_ ?_ ?_ ?_
  · show win0_4.index t (0 : Fin 4) * 1 + 1 * (y 0).val = win0_5.index t (0 : Fin 4); omega
  · show win0_4.index t (1 : Fin 4) * 1 + 1 * (y 1).val = win0_5.index t (1 : Fin 4); omega
  · show win0_4.index t (2 : Fin 4) * 512 + 1 * (y 2).val = win0_5.index t (2 : Fin 4) * 512 + (y 2).val; omega
  · show win0_4.index t (3 : Fin 4) * 64 + 1 * (y 3).val = (y 3).val; omega

/-! ## The blocks tile the result arrays -/

theorem mem_blk5 (t : Fin cfg0.N) (i : S2x12x2048x2048.Idx) :
    i ∈ ((cfg0.win 5).blk t).view.set ↔ ∀ a : Fin 4, win0_5.index t a * S1x1x512x2048.size a ≤ (i a).val
      ∧ (i a).val < win0_5.index t a * S1x1x512x2048.size a + S1x1x512x2048.size a := by
  show i ∈ ((View.whole main_v3_1).slice (win0_5.rect t)).set ↔ _
  rw [View.set_slice_whole, Rect.mem_set_unit]
  exact Iff.rfl

theorem mem_blk4 (t : Fin cfg0.N) (i : S2x12x2048x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v3_0).slice (win0_4.rect t)).set ↔ _
  rw [View.set_slice_whole, Rect.mem_set_unit]
  exact Iff.rfl

/-- Every index of the weights' array is in the block of the point of its batch, head and query tile. -/
theorem cover5 (i : S2x12x2048x2048.Idx) :
    ∃ t : Fin cfg0.N, (cfg0.win 5).flush t = true ∧ i ∈ ((cfg0.win 5).blk t).view.set := by
  have hi0 : (i 0).val < 2 := (i 0).isLt
  have hi1 : (i 1).val < 12 := (i 1).isLt
  have hi2 : (i 2).val < 2048 := (i 2).isLt
  have hi3 : (i 3).val < 2048 := (i 3).isLt
  obtain ⟨t, q0, q1, q2⟩ := idx_onto ⟨(i 0).val, hi0⟩ ⟨(i 1).val, hi1⟩ ⟨(i 2).val / 512, by omega⟩
  have q0' : win0_5.index t (0 : Fin 4) = (i 0).val := q0
  have q1' : win0_5.index t (1 : Fin 4) = (i 1).val := q1
  have q2' : win0_5.index t (2 : Fin 4) = (i 2).val / 512 := q2
  obtain ⟨-, -, -, -, -, ⟨-, -, -, q3⟩⟩ := idx_facts t
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- Every index of the output's array is in the block of the point of its batch, head and query tile. -/
theorem cover4 (i : S2x12x2048x64.Idx) :
    ∃ t : Fin cfg0.N, (cfg0.win 4).flush t = true ∧ i ∈ ((cfg0.win 4).blk t).view.set := by
  have hi0 : (i 0).val < 2 := (i 0).isLt
  have hi1 : (i 1).val < 12 := (i 1).isLt
  have hi2 : (i 2).val < 2048 := (i 2).isLt
  have hi3 : (i 3).val < 64 := (i 3).isLt
  obtain ⟨t, q0, q1, q2⟩ := idx_onto ⟨(i 0).val, hi0⟩ ⟨(i 1).val, hi1⟩ ⟨(i 2).val / 512, by omega⟩
  have q0' : win0_5.index t (0 : Fin 4) = (i 0).val := q0
  have q1' : win0_5.index t (1 : Fin 4) = (i 1).val := q1
  have q2' : win0_5.index t (2 : Fin 4) = (i 2).val / 512 := q2
  obtain ⟨-, -, -, -, ⟨e0, e1, e2, e3⟩, -⟩ := idx_facts t
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- The weights' array after the run is the specification's weights: its blocks tile it. -/
theorem final5 (hQ : ∀ i, ∃ x : ℝ, Qa m c i = x) (hK : ∀ i, ∃ x : ℝ, Ka m c i = x) : (dats m 0 c).arrAt 5 cfg0.N = weights (Qa m c) (Ka m c) (Ma m c) :=
  (dats m 0 c).arrAt_eq_of_cover 5 (weights (Qa m c) (Ka m c) (Ma m c)) (fun t _ => flushed5_eq m c hQ hK t) cover5

/-- The output's array after the run is the specification's output: its blocks tile it. -/
theorem final4 (hQ : ∀ i, ∃ x : ℝ, Qa m c i = x) (hK : ∀ i, ∃ x : ℝ, Ka m c i = x) : (dats m 0 c).arrAt 4 cfg0.N = output (Qa m c) (Ka m c) (Va m c) (Ma m c) :=
  (dats m 0 c).arrAt_eq_of_cover 4 (output (Qa m c) (Ka m c) (Va m c) (Ma m c)) (fun t _ => flushed4_eq m c hQ hK t) cover4

end Point

/-! ## The run, read -/

/-- For real queries and keys every weakly fair execution of the kernel's program ends with the two result arrays at
    the specification's output and weights, the arguments unchanged. -/
theorem run (hQ : ∀ c i, ∃ x : ℝ, Qa m c i = x) (hK : ∀ c i, ∃ x : ℝ, Ka m c i = x) :
    θ_run defs (onTc (τ := τ) (main (F := Ideal))) ⟨m, fun _ => 0, ρ⟩ fun r => ∀ c : Dev nD,
      r.2.mem ((c : Thread nD τ).loc main_v3_0) = output (Qa m c) (Ka m c) (Va m c) (Ma m c)
      ∧ r.2.mem ((c : Thread nD τ).loc main_v3_1) = weights (Qa m c) (Ka m c) (Ma m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c (hQ c) (hK c)),
      (h c).2.1.trans (final5 m c (hQ c) (hK c)), (h c).2.2⟩)
    (Value.run_blocks m ρ)

end Attn.Arrays

end
-- ==== Proof.lean ====
/-
  Masked softmax attention, tiled over batch, head and 512-row query tiles, against its plain jnp reference:
  the two programs compute the same attention weights and the same attention output on the extended reals
  whenever the float inputs are finite.

  Both sides are brought to one specification (`Attn.Spec`): per batch, head and query position, the
  masked scores `(q · k_j) / 8` (the literal `f32(1e-9)` where the mask word is zero), their softmax along the
  keys, and the weighted sum of the value vectors. The reference computes it for every extended-real input
  (`Attn.RefSide`): its `/ sqrt 64` is `· 1/8`. The kernel differs in two places, both settled by the
  precondition (`Attn.Finite`: the query and key entries are real): it scales the query entries before the
  dot product instead of scaling the dot product, and it multiplies by the reciprocal of the row's sum instead
  of dividing by it (`Attn.Row`, used block by block in `Attn.Block`). The kernel's result arrays are then
  assembled from the blocks the grid points write back (`Attn.Arrays`). The change of the queries, keys,
  values and weights to a narrower float format is the identity on extended reals, and a matrix product is the
  same sum on both sides.
-/
import proofs.«407602_j51238959841839_3_alg».proof.Defs
import proofs.«407602_j51238959841839_3_alg».proof.Proof.Gen.Kernel
import proofs.«407602_j51238959841839_3_alg».proof.Proof.Gen.Kernel.Skeleton
import proofs.«407602_j51238959841839_3_alg».proof.Proof.Gen.Kernel.Launch
import proofs.«407602_j51238959841839_3_alg».proof.Proof.Gen.Kernel.Points
import proofs.«407602_j51238959841839_3_alg».proof.Proof.Gen.Kernel.Frame
import proofs.«407602_j51238959841839_3_alg».proof.Proof.Gen.KernelIdeal
import proofs.«407602_j51238959841839_3_alg».proof.Proof.Gen.KernelIdeal.Skeleton
import proofs.«407602_j51238959841839_3_alg».proof.Proof.Gen.KernelIdeal.Launch
import proofs.«407602_j51238959841839_3_alg».proof.Proof.Gen.KernelIdeal.Points
import proofs.«407602_j51238959841839_3_alg».proof.Proof.Gen.KernelIdeal.Frame
import proofs.«407602_j51238959841839_3_alg».proof.Proof.Gen.ReferenceIdeal
import proofs.«407602_j51238959841839_3_alg».proof.Proof.Gen.Pre_finite_inputs
import proofs.«407602_j51238959841839_3_alg».proof.Proof.Gen.KernelIdeal.Value
import proofs.«407602_j51238959841839_3_alg».proof.Proof.Gen.ReferenceIdeal.Run
import proofs.«407602_j51238959841839_3_alg».proof.Proof.Gen.ReferenceIdeal.Read
import proofs.«407602_j51238959841839_3_alg».proof.Proof.Finite
import proofs.«407602_j51238959841839_3_alg».proof.Proof.RefSide
import proofs.«407602_j51238959841839_3_alg».proof.Proof.Arrays
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- Under the precondition both programs end with the specification's output and weights of the (agreeing) arguments:
    the kernel because its queries and keys are real, the reference unconditionally. -/
theorem algebraic : Cert.algebraic_KernelIdeal_ReferenceIdeal := by
  intro m ρ m' ρ' hpre hagree
  have hreal := fun c => Attn.Finite.reals_of_pre _ _ _ _ (hpre c)
  refine ⟨fun c => Attn.Spec.output (Attn.Arrays.Qa m c) (Attn.Arrays.Ka m c) (Attn.Arrays.Va m c) (Attn.Arrays.Ma m c),
    fun c => Attn.Spec.weights (Attn.Arrays.Qa m c) (Attn.Arrays.Ka m c) (Attn.Arrays.Ma m c),
    Attn.Arrays.run m ρ (fun c => (hreal c).1) (fun c => (hreal c).2), ?_⟩
  refine (θ_run Cert.ReferenceIdeal.defs _ _).mono (fun _ h c => ?_)
    (Cert.ReferenceIdeal.Value.run (F := Ideal) m' ρ')
  refine ⟨(h c).1.trans ?_, (h c).2.1.trans ?_, (h c).2.2⟩
  · refine (Cert.ReferenceIdeal.Read.val_main_v18_eq (F := Ideal) _ _ _ _).trans ?_
    rw [Attn.RefSide.output_eq, (hagree c).1, (hagree c).2.1, (hagree c).2.2.1, (hagree c).2.2.2]
  · refine (Cert.ReferenceIdeal.Read.val_main_v17_eq (F := Ideal) _ _ _).trans ?_
    rw [Attn.RefSide.weights_eq, (hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
